-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4096x256 .f32) (main_arg1 : FVec F S256x256 .f32) (main_arg2 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S512x256 : Shape := ⟨2, ![512, 256]⟩
abbrev S256x4096 : Shape := ⟨2, ![256, 4096]⟩
abbrev S512x4096 : Shape := ⟨2, ![512, 4096]⟩
abbrev S4096 : Shape := ⟨1, ![4096]⟩
abbrev S1x4096 : Shape := ⟨2, ![1, 4096]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S256x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  transposes_S4096x256_p1_0_S256x4096 : S4096x256.Transposes [1, 0] S256x4096
  iota_S512x4096_d0_w32 : S512x4096.Iotas .tc 32 [0]
  iota_S512x4096_d1_w32 : S512x4096.Iotas .tc 32 [1]
  reduces_S4096x256_S4096 : S4096x256.Reduces [1] S4096
  shapeCasts_S4096_S1x4096 : S4096.ShapeCasts S1x4096
  shapeCasts_S1x4096_S1x4096 : S1x4096.ShapeCasts S1x4096
  broadcasts_S1x4096_S512x4096 : S1x4096.Broadcasts S512x4096
  reduces_S512x4096_S512 : S512x4096.Reduces [1] S512
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S512_S512x1 : S512.ShapeCasts S512x1
  broadcasts_S512x1_S512x256 : S512x1.Broadcasts S512x256
  broadcasts_S1x256_S512x256 : S1x256.Broadcasts S512x256
  inb_S1x256_S1x256_0_0 : ∀ a, (![0, 0] : Fin 2 → Nat) a + S1x256.size a ≤ S1x256.size a
  h_S1x256 : 0 < S1x256.numel
  shapeCasts_S1x256_S256 : S1x256.ShapeCasts S256
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S256x4096 : Shape := ⟨2, ![256, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S256x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S4096x4096, .i1⟩
  | .hbm, ⟨17, _⟩ => ⟨S4096x4096, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .i1⟩
  | .hbm, ⟨25, _⟩ => ⟨S4096, .i1⟩
  | .hbm, ⟨26, _⟩ => ⟨S4096x1, .i1⟩
  | .hbm, ⟨27, _⟩ => ⟨S4096x1, .f32⟩
  | .hbm, ⟨28, _⟩ => ⟨S4096x256, .f32⟩
  | .hbm, ⟨29, _⟩ => ⟨S_, .f32⟩
  | .hbm, ⟨30, _⟩ => ⟨S_, .f32⟩
  | .hbm, ⟨31, _⟩ => ⟨S4096x256, .i1⟩
  | .hbm, ⟨32, _⟩ => ⟨S4096x256, .f32⟩
  | .hbm, ⟨33, _⟩ => ⟨S4096x256, .f32⟩
  | .hbm, ⟨34, _⟩ => ⟨S256x256, .f32⟩
  | .hbm, ⟨35, _⟩ => ⟨S4096x256, .f32⟩
  | .hbm, ⟨36, _⟩ => ⟨S1x256, .f32⟩
  | .hbm, ⟨37, _⟩ => ⟨S4096x256, .f32⟩
  | .hbm, ⟨38, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  transposes_S4096x256_S256x4096_1_0 : S4096x256.Transposes [1, 0] S256x4096
  bcast_S_S4096x4096 : S_.BroadcastsInDim S4096x4096 (![] : Fin 0 → Fin S4096x4096.rank)
  reducesTo_S4096x256_S4096_d1 : S4096x256.ReducesTo [1] S4096
  h_S_ : 0 < S_.numel
  bcast_S_S4096 : S_.BroadcastsInDim S4096 (![] : Fin 0 → Fin S4096.rank)
  reducesTo_S4096x4096_S4096_d1 : S4096x4096.ReducesTo [1] S4096
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x4096_S4096x4096_1_0_0_1_n_n_wf : DotDims.WF S4096x256 S256x4096 S4096x4096 [1] [0] [0] [1] [] []
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.Spec.lean ====
/-
  The mathematics both programs compute, index by index, over the extended reals.

  Inputs: node features x : [4096, 256], a linear layer's weights W : [256, 256] and bias b : [256].
  Two nodes r ≠ j are neighbours when the squared inner product of their feature rows reaches the
  threshold: (x_r · x_j)² ≥ 0.85 (`mbit`, a one-bit word; `has r`: node r has a neighbour).

  The reference sums the neighbours' feature vectors (`nbr`), takes the mean over the 256 features,
  replaces it by 0 for a node without neighbours (`agg`: the same scalar in every feature column), and
  applies the linear layer: out[r, h] = Σ_f agg r · W[h, f] + b[h]  (`refOut`).

  The kernel exchanges the two sums — Σ_f Σ_j mask[r, j] · x[j, f] = Σ_j mask[r, j] · (Σ_f x[j, f]) — and
  pulls the scalar out of the product with W: out[r, h] = scal r · (Σ_f W[h, f]) + b[h]  (`kerOut`).
  The first step holds in any commutative monoid with 0 · y = 0 and 1 · y = y; the second is
  distributivity, which on the extended reals needs the scalar and the weights finite.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 256]⟩
abbrev SW : Shape := ⟨2, ![256, 256]⟩
abbrev SB : Shape := ⟨1, ![256]⟩

variable (x : SX.Idx → EReal) (W : SW.Idx → EReal) (b : SB.Idx → EReal)

/-- The threshold 0.85, as the f32 word both programs carry. -/
def thr : EReal := Ideal.ofBits .f32 0x3F59999A#32
/-- The feature count 256, as the f32 word both programs divide by. -/
def c256 : EReal := Ideal.ofBits .f32 0x43800000#32

/-- The inner product of rows r and j. -/
def gram (r j : Fin 4096) : EReal := ∑ k : Fin 256, x (ix2 r k) * x (ix2 j k)

/-- Nodes r and j are neighbours: the squared inner product reaches the threshold, and r ≠ j. -/
def mbit (r j : Fin 4096) : BitVec 1 :=
  Ideal.cmp .oge (gram x r j * gram x r j) thr &&& (if r = j then 0#1 else 1#1)

/-- Node r has a neighbour. -/
def has (r : Fin 4096) : Prop := ∃ j : Fin 4096, mbit x r j = 1#1

/-- The sum of row j's features. -/
def rowsum (j : Fin 4096) : EReal := ∑ k : Fin 256, x (ix2 j k)
/-- The sum of row h of the weights. -/
def wsum (h : Fin 256) : EReal := ∑ k : Fin 256, W (ix2 h k)

/-! ### The kernel's form -/

/-- The neighbours' row sums, added up. -/
def tsum (r : Fin 4096) : EReal := ∑ j : Fin 4096, if mbit x r j = 1#1 then rowsum x j else 0

open Classical in
/-- The mean over the features of the neighbours' summed feature vectors; 0 without neighbours. -/
def scal (r : Fin 4096) : EReal := if has x r then Ideal.div (tsum x r) c256 else 0

def kerOut (r : Fin 4096) (h : Fin 256) : EReal := scal x r * wsum W h + b (ix1 h)

/-! ### The reference's form -/

/-- The neighbour mask as a number. -/
def maskf (r j : Fin 4096) : EReal := if mbit x r j = 1#1 then 1 else 0

/-- Feature f of the neighbours' summed feature vectors. -/
def nbr (r : Fin 4096) (f : Fin 256) : EReal := ∑ j : Fin 4096, maskf x r j * x (ix2 j f)

open Classical in
def agg (r : Fin 4096) : EReal := if has x r then Ideal.div (∑ f : Fin 256, nbr x r f) c256 else 0

def refOut (r : Fin 4096) (h : Fin 256) : EReal := (∑ f : Fin 256, agg x r * W (ix2 h f)) + b (ix1 h)

end Cert.Spec

end
-- ==== Proof.Algebra.lean ====
/-
  The algebraic law joining the two forms of the specification, on the extended reals.

  (1) Exchange of the two finite sums: Σ_f Σ_j mask[r,j] · x[j,f] = Σ_j Σ_f mask[r,j] · x[j,f], and
      termwise mask · y is y (mask = 1) or 0 (mask = 0); so Σ_f nbr r f = tsum r and agg r = scal r.
      This uses only that the extended reals are an additive commutative monoid with 1 · y = y, 0 · y = 0.
  (2) Distributivity Σ_f s · W[h,f] = s · Σ_f W[h,f]. On the extended reals this needs finiteness:
      s = scal r is a real number (a finite sum of reals times the real 1/256, or 0), and every
      W[h,f] is a real number; so both sides are coercions of real numbers and the law is the one of ℝ.
-/
import proofs.«149596_g65481071399741_fold_wed_c4_273_2_alg».proof.Proof.Spec
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Algebra.BigOperators.Group.Finset.Basic
import Mathlib.Algebra.BigOperators.Ring.Finset

noncomputable section

namespace Cert.Algebra

open Idealize.ShloMosaic Idealize.ShloMosaic.ValueIdx Cert.Spec

/-! ### Finite sums of real numbers inside the extended reals -/

/-- The coercion ℝ → EReal commutes with finite sums (it is additive and sends 0 to 0). -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of extended reals that are all real numbers is a real number. -/
theorem sum_real {ι : Type*} (s : Finset ι) (g : ι → EReal) (hg : ∀ i, ∃ v : ℝ, g i = (v : EReal)) :
    ∃ v : ℝ, ∑ i ∈ s, g i = (v : EReal) := by
  choose gv hgv using hg
  exact ⟨∑ i ∈ s, gv i, by rw [coe_sum]; exact Finset.sum_congr rfl fun i _ => hgv i⟩

/-- Distributivity of a real scalar over a finite sum of real numbers, in the extended reals. -/
theorem mul_sum_real {ι : Type*} (s : Finset ι) (c : EReal) (g : ι → EReal)
    (hc : ∃ v : ℝ, c = (v : EReal)) (hg : ∀ i, ∃ v : ℝ, g i = (v : EReal)) :
    ∑ i ∈ s, c * g i = c * ∑ i ∈ s, g i := by
  obtain ⟨cv, rfl⟩ := hc
  choose gv hgv using hg
  have hg' : g = fun i => (gv i : EReal) := funext hgv
  subst hg'
  calc ∑ i ∈ s, (cv : EReal) * (gv i : EReal)
      = ∑ i ∈ s, ((cv * gv i : ℝ) : EReal) := Finset.sum_congr rfl fun i _ => (EReal.coe_mul _ _).symm
    _ = ((∑ i ∈ s, cv * gv i : ℝ) : EReal) := (coe_sum s _).symm
    _ = ((cv * ∑ i ∈ s, gv i : ℝ) : EReal) := by rw [Finset.mul_sum]
    _ = (cv : EReal) * ((∑ i ∈ s, gv i : ℝ) : EReal) := EReal.coe_mul _ _
    _ = (cv : EReal) * ∑ i ∈ s, (gv i : EReal) := by rw [coe_sum]

/-! ### The divisor 256 -/

/-- The f32 word 0x43800000 denotes the real number 256 = 2^23 · 2^(135 - 127 - 23). -/
theorem c256_eq : c256 = ((256 : ℝ) : EReal) := by
  have h : c256 = (((8388608 : ℝ) * ((2 : ℝ) ^ 15)⁻¹ : ℝ) : EReal) := by
    unfold c256
    simp [Ideal.ofBits, Ideal.ieee]
  rw [h]
  congr 1
  norm_num

/-! ### Step (1): the exchange of the two sums -/

/-- One masked term: the mask as a number times y is y where the mask bit is set and 0 elsewhere. -/
theorem maskf_mul (x : SX.Idx → EReal) (r j : Fin 4096) (y : EReal) :
    maskf x r j * y = if mbit x r j = 1#1 then y else 0 := by
  unfold maskf
  split_ifs
  · exact one_mul y
  · exact zero_mul y

/-- Σ_f Σ_j mask[r,j] · x[j,f] = Σ_j (mask[r,j] ? Σ_f x[j,f] : 0). -/
theorem sum_nbr_eq_tsum (x : SX.Idx → EReal) (r : Fin 4096) :
    ∑ f : Fin 256, nbr x r f = Cert.Spec.tsum x r := by
  unfold nbr Cert.Spec.tsum
  rw [Finset.sum_comm]
  refine Finset.sum_congr rfl fun j _ => ?_
  unfold rowsum
  by_cases hm : mbit x r j = 1#1
  · rw [if_pos hm]
    exact Finset.sum_congr rfl fun f _ => by rw [maskf_mul, if_pos hm]
  · rw [if_neg hm]
    exact Finset.sum_eq_zero fun f _ => by rw [maskf_mul, if_neg hm]

/-- Hence the reference's mean and the kernel's scalar are the same extended real. -/
theorem agg_eq_scal (x : SX.Idx → EReal) (r : Fin 4096) : agg x r = scal x r := by
  unfold agg scal
  rw [sum_nbr_eq_tsum]

/-! ### Step (2): the scalar is a real number, so it distributes over the sum with W -/

/-- A row sum of real-valued features is a real number. -/
theorem rowsum_real (x : SX.Idx → EReal) (hx : ∀ i, ∃ v : ℝ, x i = (v : EReal)) (j : Fin 4096) :
    ∃ v : ℝ, rowsum x j = (v : EReal) :=
  sum_real _ _ fun k => hx (ix2 j k)

/-- The neighbours' total is a real number: each term is a row sum or 0. -/
theorem tsum_real (x : SX.Idx → EReal) (hx : ∀ i, ∃ v : ℝ, x i = (v : EReal)) (r : Fin 4096) :
    ∃ v : ℝ, Cert.Spec.tsum x r = (v : EReal) := by
  refine sum_real _ _ fun j => ?_
  by_cases hm : mbit x r j = 1#1
  · rw [if_pos hm]; exact rowsum_real x hx j
  · rw [if_neg hm]; exact ⟨0, EReal.coe_zero.symm⟩

/-- The scalar is a real number: the total times the real 1/256, or 0. -/
theorem scal_real (x : SX.Idx → EReal) (hx : ∀ i, ∃ v : ℝ, x i = (v : EReal)) (r : Fin 4096) :
    ∃ v : ℝ, scal x r = (v : EReal) := by
  unfold scal
  split_ifs
  · obtain ⟨t, ht⟩ := tsum_real x hx r
    refine ⟨t * (1 / 256 : ℝ), ?_⟩
    rw [ht, c256_eq, Ideal.div_coe (by norm_num : (256 : ℝ) ≠ 0), EReal.coe_mul]
  · exact ⟨0, EReal.coe_zero.symm⟩

/-- The two forms of the specification agree at every output index. -/
theorem refOut_eq_kerOut (x : Cert.Spec.SX.Idx → EReal) (W : Cert.Spec.SW.Idx → EReal) (b : Cert.Spec.SB.Idx → EReal)
    (hx : ∀ i, ∃ v : ℝ, x i = (v : EReal)) (hW : ∀ i, ∃ v : ℝ, W i = (v : EReal)) (r : Fin 4096) (h : Fin 256) :
    Cert.Spec.refOut x W b r h = Cert.Spec.kerOut x W b r h := by
  unfold refOut kerOut wsum
  rw [agg_eq_scal, mul_sum_real _ _ _ (scal_real x hx r) fun f => hW (ix2 h f)]

end Cert.Algebra

end
-- ==== Proof.Finite.lean ====
/-
  Finiteness of the inputs, read back from the printed precondition.

  The precondition is the conjunction of three tests "every entry a of the array has |a| < +∞", one per
  input. Over the extended reals |a| is max a (-a), and the f32 word 0x7F800000 denotes ⊤. So the test holds
  at an entry exactly when that entry is neither ⊤ nor ⊥: it is a real number. A conjunction of one-bit
  words is 1 only when each word is 1, and an "all" over an array that is 1 has a 1 at every index.
-/
import proofs.«149596_g65481071399741_fold_wed_c4_273_2_alg».proof.Proof.Gen.Pre_finite_inputs
import Idealize.ShloMosaic.Lib.ReduceAll
import Idealize.ShloMosaic.Lib.ValueIdx
import Idealize.ShloMosaic.PureOps.Ideal

namespace Cert.Finite

open Idealize.ShloMosaic

/-- The f32 word 0x7F800000 (sign 0, exponent all ones, fraction 0) denotes +∞. -/
theorem inf_eq_top : Ideal.ofBits .f32 0x7F800000#32 = (⊤ : EReal) := by
  simp [Ideal.ofBits, Ideal.ieee]

/-- An extended real whose absolute value max x (-x) lies strictly below +∞ is a real number:
    at ⊤ the maximum is ⊤, at ⊥ it is -⊥ = ⊤, and ⊤ < ⊤ fails. -/
theorem real_of_abs_lt (x : EReal)
    (h : Ideal.cmp .olt (max x (-x)) (Ideal.ofBits .f32 0x7F800000#32) = 1#1) : ∃ v : ℝ, x = (v : EReal) := by
  rw [inf_eq_top] at h
  induction x using EReal.rec with
  | bot => simp [Ideal.cmp] at h
  | coe v => exact ⟨v, rfl⟩
  | top => simp [Ideal.cmp] at h

/-- The rank-0 shape has one index. -/
instance : Subsingleton Cert.Pre_finite_inputs.S_.Idx := ⟨fun a b => funext fun d => d.elim0⟩

/-- Under the precondition, every entry of the features and of the weights is a real number. -/
theorem real_of_pre [Cert.Pre_finite_inputs.Facts]
    (a0 : FVec Ideal Cert.Pre_finite_inputs.S4096x256 .f32) (a1 : FVec Ideal Cert.Pre_finite_inputs.S256x256 .f32)
    (a2 : FVec Ideal Cert.Pre_finite_inputs.S256 .f32)
    (h : Cert.Pre_finite_inputs.fn (F := Ideal) a0 a1 a2 = fun _ => 1#1) :
    (∀ i, ∃ v : ℝ, a0 i = (v : EReal)) ∧ (∀ i, ∃ v : ℝ, a1 i = (v : EReal)) := by
  have h0 := congrFun h ValueIdx.ix0
  dsimp only [Cert.Pre_finite_inputs.fn] at h0
  -- the outer conjunction: (all₀ ∧ all₁) ∧ all₂; the inner one: all₀ ∧ all₁
  obtain ⟨h01, -⟩ := IntOp.andi_eq_one.1 h0
  obtain ⟨hx, hw⟩ := IntOp.andi_eq_one.1 h01
  refine ⟨fun i => ?_, fun i => ?_⟩
  · exact real_of_abs_lt (a0 i) (Host.reduce_andi_all _ _ _ _ _ hx i)
  · exact real_of_abs_lt (a1 i) (Host.reduce_andi_all _ _ _ _ _ hw i)

end Cert.Finite
-- ==== Proof.RefSide.lean ====
/-
  The reference's result, read at an index, is the specification's `refOut`.

  Bottom-up: the first product at (r, j) is the inner product of rows r and j; the neighbour bit is the comparison
  of its square against the threshold, and-ed with "r ≠ j" (row and column numbers below 4096 are equal as 32-bit
  words exactly when they are equal); the bit as a number is 1 or 0; the second product at (r, f) sums the
  neighbours' feature f; the float sum over f from 0, divided by 256, is the mean; the or over a row of one-bit
  words from 0 is 1 exactly when some bit of the row is 1, so the select keeps the mean for a node with a
  neighbour and puts 0 otherwise; the last product reads the weights transposed and the bias is added.
-/
import proofs.«149596_g65481071399741_fold_wed_c4_273_2_alg».proof.Proof.Spec
import proofs.«149596_g65481071399741_fold_wed_c4_273_2_alg».proof.Proof.RefRead
import Idealize.ShloMosaic.PureOps.Reduce
import Idealize.ShloMosaic.PureOps.Ideal.Laws
import Idealize.ShloMosaic.Lib.ValueIdx

noncomputable section

namespace Cert.RefSide

open Cert.ReferenceIdeal Cert.ReferenceIdeal.ReadP Idealize.ShloMosaic ValueIdx

/-! ### Index equations -/

theorem lidx1 (r j : Fin 4096) (k : Fin 256) : lidx_main_v1 (ix2 r j) k = ix2 r k := by
  funext a; match a with | ⟨0, _⟩ => rfl | ⟨1, _⟩ => rfl

theorem ridx1 (r j : Fin 4096) (k : Fin 256) : idx_main_v0 (ridx_main_v1 (ix2 r j) k) = ix2 j k := by
  funext a; match a with | ⟨0, _⟩ => rfl | ⟨1, _⟩ => rfl

theorem lidx13 (r : Fin 4096) (f : Fin 256) (k : Fin 4096) : lidx_main_v13 (ix2 r f) k = ix2 r k := by
  funext a; match a with | ⟨0, _⟩ => rfl | ⟨1, _⟩ => rfl

theorem ridx13 (r : Fin 4096) (f : Fin 256) (k : Fin 4096) : ridx_main_v13 (ix2 r f) k = ix2 k f := by
  funext a; match a with | ⟨0, _⟩ => rfl | ⟨1, _⟩ => rfl

theorem idx14 (r : Fin 4096) (k : Fin 256) : idx_main_v14 (ix1 r) k = ix2 r k := by
  funext a; match a with | ⟨0, _⟩ => rfl | ⟨1, _⟩ => rfl

theorem idx18 (r : Fin 4096) (f : Fin 256) : idx_main_v18 (idx_main_call0_v1 (ix2 r f)) = ix1 r := by
  funext a; match a with | ⟨0, _⟩ => rfl

theorem idx19 (r : Fin 4096) (f : Fin 256) : idx_main_v19 (idx_main_v20 (ix2 r f)) = ix1 r := by
  funext a; match a with | ⟨0, _⟩ => rfl

theorem lidx23 (r : Fin 4096) (h k : Fin 256) : lidx_main_v23 (ix2 r h) k = ix2 r k := by
  funext a; match a with | ⟨0, _⟩ => rfl | ⟨1, _⟩ => rfl

theorem ridx23 (r : Fin 4096) (h k : Fin 256) : idx_main_v22 (ridx_main_v23 (ix2 r h) k) = ix2 h k := by
  funext a; match a with | ⟨0, _⟩ => rfl | ⟨1, _⟩ => rfl

theorem idx25 (r : Fin 4096) (h : Fin 256) : idx_main_v24 (idx_main_v25 (ix2 r h)) = ix1 h := by
  funext a; match a with | ⟨0, _⟩ => rfl

section Main

variable (x0 : (⟨S4096x256, .f32⟩ : BufTy).Contents (Elt Ideal))

/-- The first product, read at (r, j), is the inner product of rows r and j. -/
theorem gram_at (r j : Fin 4096) : val_main_v1 (F := Ideal) x0 (ix2 r j) = Cert.Spec.gram x0 r j := by
  rw [val_main_v1_apply]
  unfold Cert.Spec.gram
  refine Finset.sum_congr rfl fun k _ => ?_
  rw [val_main_v0_apply, lidx1, ridx1]

/-- Row and column numbers below 4096 are equal as 32-bit words exactly when they are equal. -/
theorem diag_bit (r j : Fin 4096) :
    ~~~(IntOp.cmpi .eq (IntOp.addi (BitVec.ofNat 32 r.val) 0#32) (BitVec.ofNat 32 j.val))
      = if r = j then 0#1 else 1#1 := by
  have hadd : IntOp.addi (BitVec.ofNat 32 r.val) 0#32 = BitVec.ofNat 32 r.val := by
    unfold IntOp.addi; exact BitVec.add_zero _
  rw [hadd]
  unfold IntOp.cmpi
  by_cases h : r = j
  · subst h
    rw [if_pos rfl]
    show ~~~(BitVec.ofBool (BitVec.ofNat 32 r.val == BitVec.ofNat 32 r.val)) = 0#1
    rw [beq_self_eq_true]; decide
  · rw [if_neg h]
    have hne : (BitVec.ofNat 32 r.val == BitVec.ofNat 32 j.val) = false := by
      rw [beq_eq_false_iff_ne]
      intro e
      have e' := congrArg BitVec.toNat e
      rw [BitVec.toNat_ofNat, BitVec.toNat_ofNat] at e'
      have hr := r.isLt
      have hj := j.isLt
      exact h (Fin.ext (by omega))
    show ~~~(BitVec.ofBool (BitVec.ofNat 32 r.val == BitVec.ofNat 32 j.val)) = 1#1
    rw [hne]; decide

/-- The neighbour bit, read at (r, j). -/
theorem bit_at (r j : Fin 4096) : val_main_v11 (F := Ideal) x0 (ix2 r j) = Cert.Spec.mbit x0 r j := by
  rw [val_main_v11_apply, val_main_v4_apply, val_main_v2_apply, val_main_v3_apply, val_main_cst_apply,
    val_main_v10_apply, val_main_v9_apply, val_main_v8_apply, val_main_v5_apply, val_main_v7_apply,
    val_main_c_apply, val_main_v6_apply, gram_at]
  unfold Cert.Spec.mbit Cert.Spec.thr
  rw [← diag_bit r j]
  rfl

/-- The neighbour bit as a number: a one-bit word read unsigned is 1 or 0. -/
theorem maskf_at (r j : Fin 4096) : val_main_v12 (F := Ideal) x0 (ix2 r j) = Cert.Spec.maskf x0 r j := by
  rw [val_main_v12_apply, bit_at]
  unfold Cert.Spec.maskf
  show (((Cert.Spec.mbit x0 r j).toNat : ℝ) : EReal) = _
  by_cases hb : Cert.Spec.mbit x0 r j = 1#1
  · rw [if_pos hb, hb]
    show (((1 : ℕ) : ℝ) : EReal) = 1
    rw [Nat.cast_one, EReal.coe_one]
  · rw [if_neg hb, eq_zero_of_ne_one hb]
    show (((0 : ℕ) : ℝ) : EReal) = 0
    rw [Nat.cast_zero, EReal.coe_zero]

/-- The second product, read at (r, f): feature f of the neighbours' summed feature vectors. -/
theorem nbr_at (r : Fin 4096) (f : Fin 256) : val_main_v13 (F := Ideal) x0 (ix2 r f) = Cert.Spec.nbr x0 r f := by
  rw [val_main_v13_apply]
  unfold Cert.Spec.nbr
  refine Finset.sum_congr rfl fun k _ => ?_
  rw [lidx13, ridx13, maskf_at]

/-- The mean over the features, read at r. -/
theorem mean_at (r : Fin 4096) :
    val_main_v16 (F := Ideal) x0 (ix1 r) = Ideal.div (∑ f : Fin 256, Cert.Spec.nbr x0 r f) Cert.Spec.c256 := by
  rw [val_main_v16_apply, val_main_v14_apply, val_main_cst_0_apply, val_main_v15_apply, val_main_cst_1_apply]
  unfold Cert.Spec.c256
  rw [Ideal.hostDivf_def, Ideal.ofBits_def, Ideal.ofBits_def, Ideal.ofBits_zero_f32, zero_add]
  refine congrArg (fun s => Ideal.div s _) (Finset.sum_congr rfl fun k _ => ?_)
  rw [idx14, nbr_at]

/-! ### The or-reduce -/

/-- An or of two one-bit words is 1 exactly when one of them is. -/
theorem ori_eq_one (a b : BitVec 1) : IntOp.ori a b = 1#1 ↔ a = 1#1 ∨ b = 1#1 := by
  unfold IntOp.ori
  rcases BitVec.eq_zero_or_eq_one a with ha | ha <;> rcases BitVec.eq_zero_or_eq_one b with hb | hb <;>
    subst ha <;> subst hb <;> decide

/-- The fold of or from 0 over a finite set of one-bit words is 1 exactly when some word is 1. -/
theorem fold_ori_eq_one {ι : Type} [DecidableEq ι] (g : ι → BitVec 1) (s : Finset ι) :
    Finset.fold IntOp.ori 0#1 g s = 1#1 ↔ ∃ k ∈ s, g k = 1#1 := by
  induction s using Finset.induction_on with
  | empty =>
    rw [Finset.fold_empty]
    constructor
    · intro h; exact absurd h (by decide)
    · rintro ⟨k, hk, _⟩; exact absurd hk (Finset.notMem_empty k)
  | insert a s ha ih =>
    rw [Finset.fold_insert ha, ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.1 hk with rfl | hk'
      · exact Or.inl h
      · exact Or.inr ⟨k, hk', h⟩

/-- The reduced axis's coordinate inserted into the row index. -/
theorem lift17 (hR : S4096x4096.Reduces [1] S4096) (r : Fin 4096) (k : Fin (S4096x4096.size 1)) (k' : Fin 4096)
    (hk : k.val = k'.val) : hR.lift (ix1 r) k = ix2 r k' := by
  funext a
  apply Fin.ext
  rw [hR.lift_val]
  match a with
  | ⟨0, _⟩ => rfl
  | ⟨1, _⟩ => exact hk

/-- The or-reduce over the columns, read at r: node r has a neighbour. -/
theorem has_at (r : Fin 4096) : val_main_v17 (F := Ideal) x0 (ix1 r) = 1#1 ↔ Cert.Spec.has x0 r := by
  have hR : S4096x4096.Reduces [1] S4096 := by decide
  unfold val_main_v17
  rw [Host.reduce_eq_fold_single IntOp.ori _ _ _ hR, val_main_c_2_apply, fold_ori_eq_one]
  unfold Cert.Spec.has
  constructor
  · rintro ⟨k, _, hk⟩
    refine ⟨⟨k.val, k.isLt⟩, ?_⟩
    rw [← bit_at, ← lift17 hR r k ⟨k.val, k.isLt⟩ rfl]; exact hk
  · rintro ⟨j, hj⟩
    have hj' : j.val < S4096x4096.size 1 := j.isLt
    refine ⟨⟨j.val, hj'⟩, Finset.mem_univ _, ?_⟩
    show val_main_v11 (F := Ideal) x0 (hR.lift (ix1 r) ⟨j.val, hj'⟩) = 1#1
    rw [lift17 hR r ⟨j.val, hj'⟩ j rfl, bit_at]; exact hj

/-- The selected mean, read at (r, f): the mean when r has a neighbour, else 0; the same in every column f. -/
theorem agg_at (r : Fin 4096) (f : Fin 256) : val_main_v21 (F := Ideal) x0 (ix2 r f) = Cert.Spec.agg x0 r := by
  rw [val_main_v21_apply, val_main_call0_v1_apply, val_main_v18_apply, idx18, val_main_v20_apply,
    val_main_v19_apply, idx19, mean_at, val_main_call0_v2_apply, val_main_call0_v0_apply, val_main_cst_3_apply,
    Ideal.ofBits_def, Ideal.ofBits_zero_f32]
  unfold Cert.Spec.agg
  by_cases hh : Cert.Spec.has x0 r
  · rw [if_pos hh, (has_at x0 r).2 hh, select_one]
  · rw [if_neg hh, eq_zero_of_ne_one (fun e => hh ((has_at x0 r).1 e)), select_zero]

end Main

/-- The reference's result, read at (r, h), is the specification's `refOut`: the linear layer applied to the
    selected mean (the same scalar in every feature column), the weights read transposed, plus the bias. -/
theorem ref_apply (x0 : (⟨S4096x256, .f32⟩ : BufTy).Contents (Elt Ideal)) (x1 : (⟨S256x256, .f32⟩ : BufTy).Contents (Elt Ideal)) (x2 : (⟨S256, .f32⟩ : BufTy).Contents (Elt Ideal))
    (r : Fin 4096) (h : Fin 256) :
    val_main_v26 (F := Ideal) x0 x1 x2 (ix2 r h) = Cert.Spec.refOut x0 x1 x2 r h := by
  rw [val_main_v26_apply, val_main_v23_apply, val_main_v25_apply, val_main_v24_apply, idx25, Ideal.addf_def]
  unfold Cert.Spec.refOut
  refine congrArg (· + x2 (ix1 h)) (Finset.sum_congr rfl fun k _ => ?_)
  rw [lidx23, agg_at, val_main_v22_apply, ridx23]

end Cert.RefSide

end
-- ==== Proof.KerPay.lean ====
/-
  The kernel's stored value read at one index, over the extended reals.

  For grid coordinate i the kernel holds rows i·512 … i·512+511 of the feature array x (the row block) together with the
  whole of x, the weights W and the bias row. Row p of the block is row r = i·512 + p of x. Operation by operation:
  the product of the block with the transpose of x into the zero accumulator is the inner product x_r · x_j at (p, j);
  its square is compared with the threshold, and the bit is cleared on the diagonal r = j, where the diagonal is found by
  comparing the 32-bit words i·512 + p and j (all below 4096, so the words compare as the numbers do): this is the
  neighbour bit. The lane sums of x are the row sums; selecting them by the bit and summing over j gives the neighbours'
  row sums added up. The maximum over j of the 0/1 indicator of the bit, started from -inf, is above 0 exactly when row r
  has a neighbour. The sum divided by 256, or 0 without a neighbour, is the scalar of row r; it multiplies the lane sum
  of row h of W, and the bias at h is added.
-/
import Idealize.ShloMosaic.PureOps.Ideal.Laws
import Idealize.ShloMosaic.Lib.ValueIdx
import Idealize.ShloMosaic.Lib.ValueLayout
import Idealize.ShloMosaic.Lib.Pipeline.Value
import proofs.«149596_g65481071399741_fold_wed_c4_273_2_alg».proof.Proof.Spec
import proofs.«149596_g65481071399741_fold_wed_c4_273_2_alg».proof.Proof.Gen.KernelIdeal.Skeleton

noncomputable section

namespace Cert.KerPay

open Cert.KernelIdeal Cert.KernelIdeal.Gen Idealize.ShloMosaic Idealize.ShloMosaic.ValueIdx

/-! ## Words and constants -/

/-- The words 1.0 and -inf as extended reals. -/
theorem ofBits_one : Ideal.ofBits .f32 0x3F800000#32 = 1 := by
  simp [Ideal.ofBits, Ideal.ieee, -EReal.coe_mul]; norm_num
theorem ofBits_ninf : Ideal.ofBits .f32 0xFF800000#32 = ⊥ := by
  simp [Ideal.ofBits, Ideal.ieee]

/-- A strict comparison's bit is set exactly when the order holds. -/
theorem cmp_ogt_eq_one (x y : EReal) : Ideal.cmp .ogt x y = 1#1 ↔ y < x := by
  unfold Ideal.cmp
  by_cases h : y < x
  · simp [h]
  · simp [h]

/-- No wrap-around: for a row number below 4096 the 32-bit words i0·512 + p and j differ exactly when the row numbers
    do. -/
theorem ne_word (i0 p : Nat) (r j : Fin 4096) (hr : r.val = i0 * 512 + p) :
    IntOp.cmpi .ne (IntOp.addi (Scalar.muli (BitVec.ofNat 32 i0) 512#32) (BitVec.ofNat 32 p)) (BitVec.ofNat 32 j.val)
      = if r = j then 0#1 else 1#1 := by
  have hx : IntOp.addi (Scalar.muli (BitVec.ofNat 32 i0) 512#32) (BitVec.ofNat 32 p) = BitVec.ofNat 32 r.val := by
    rw [hr, BitVec.ofNat_add, BitVec.ofNat_mul]; rfl
  rw [hx]
  by_cases h : r = j
  · subst h
    rw [if_pos rfl]
    simp [IntOp.cmpi]
  · rw [if_neg h]
    have hne : BitVec.ofNat 32 r.val ≠ BitVec.ofNat 32 j.val := by
      intro heq
      have h2 := congrArg BitVec.toNat heq
      rw [BitVec.toNat_ofNat, BitVec.toNat_ofNat] at h2
      have h3 := r.isLt
      have h4 := j.isLt
      exact h (Fin.ext (by omega))
    have hb : (BitVec.ofNat 32 r.val != BitVec.ofNat 32 j.val) = true := bne_iff_ne.mpr hne
    simp [IntOp.cmpi, hb]

/-- The maximum over a row of the 0/1 indicator of a bit, started from -inf, is above 0 exactly when some bit of the
    row is set. -/
theorem has_iff (f : Fin 4096 → BitVec 1) :
    Ideal.cmp .ogt ((Finset.univ : Finset (Fin 4096)).fold max (Ideal.ofBits .f32 0xFF800000#32)
        (fun j => Scalar.select (f j) (Ideal.ofBits .f32 0x3F800000#32) (Ideal.ofBits .f32 0x00000000#32)))
        (Ideal.ofBits .f32 0x00000000#32) = 1#1 ↔ ∃ j, f j = 1#1 := by
  rw [cmp_ogt_eq_one, Finset.lt_fold_max, ofBits_one, ofBits_ninf, Ideal.ofBits_zero_f32]
  constructor
  · rintro (h | ⟨x, _, hx⟩)
    · exact absurd h (not_lt_bot)
    · by_cases hc : f x = 1#1
      · exact ⟨x, hc⟩
      · exfalso
        have : Scalar.select (f x) (1 : EReal) 0 = 0 := if_neg hc
        rw [this] at hx
        exact lt_irrefl _ hx
  · rintro ⟨j, hj⟩
    refine Or.inr ⟨j, Finset.mem_univ _, ?_⟩
    have : Scalar.select (f j) (1 : EReal) 0 = 1 := if_pos hj
    rw [this]
    exact zero_lt_one

/-! ## Layout operations of the keepdims column forms, read at an index -/

/-- A [512] vector cast to the column [512, 1] reads, at (p, u), the vector at p. -/
theorem cast_col_at {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The column [512, 1] broadcast to [512, 256] reads, at (p, c), the column at (p, 0). -/
theorem bcast_col_at {α : Type} (v : S512x1.Idx → α) (h : S512x1.Broadcasts S512x256) (p : Fin 512) (c : Fin 256) :
    broadcastTo S512x256 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ## The dot's operand indices -/

theorem lhs_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
theorem lhs_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q
theorem rhs_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q
theorem rhs_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- The product of a [512, 256] block with a [256, 4096] array into the zero accumulator, read at (p, j): the sum over
    the 256 contracted coordinates. -/
theorem matmul_at (xb : FVec Ideal S512x256 .f32) (y : FVec Ideal S256x4096 .f32) (p : Fin 512) (j : Fin 4096) :
    matmul (F := Ideal) dot_S512x256_S256x4096_S512x4096_1_0_0_1_n_n none xb y (constant (F := Ideal) S512x4096 .f32 0x00000000#32) (ix2 p j)
      = ∑ k : Fin 256, xb (ix2 p k) * y (ix2 k j) := by
  refine (Ideal.matmul_constant_zero_apply dot_S512x256_S256x4096_S512x4096_1_0_0_1_n_n none xb y (ix2 p j)).trans ?_
  rw [← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have el : dot_S512x256_S256x4096_S512x4096_1_0_0_1_n_n.lhsIdx (ix2 p j) ((contrEquiv1 dot_S512x256_S256x4096_S512x4096_1_0_0_1_n_n 256 rfl rfl).symm k) = ix2 p k := funext fun a => Fin.ext (by
    match a with
    | ⟨0, _⟩ => exact lhs_0 _ _
    | ⟨1, _⟩ => exact (lhs_1 _ _).trans hk)
  have er : dot_S512x256_S256x4096_S512x4096_1_0_0_1_n_n.rhsIdx (ix2 p j) ((contrEquiv1 dot_S512x256_S256x4096_S512x4096_1_0_0_1_n_n 256 rfl rfl).symm k) = ix2 k j := funext fun a => Fin.ext (by
    match a with
    | ⟨0, _⟩ => exact (rhs_0 _ _).trans hk
    | ⟨1, _⟩ => exact rhs_1 _ _)
  rw [el, er]

/-! ## The lane reductions, read at an index -/

/-- A lane sum of a [4096, 256] array read at row j. -/
theorem sum4096_at (xa : FVec Ideal S4096x256 .f32) (j : Fin 4096) :
    multiReduction (F := Ideal) .add [1] S4096 xa 0x00000000#32 reduces_S4096x256_S4096 (.inl rfl) rfl (ix1 j)
      = ∑ k : Fin 256, xa (ix2 j k) := by
  refine (Ideal.multiReduction_add_single xa 0x00000000#32 reduces_S4096x256_S4096 (.inl rfl) rfl (ix1 j)).trans ?_
  show ∑ k : Fin 256, xa (reduces_S4096x256_S4096.lift (ix1 j) k) = _
  refine Finset.sum_congr rfl fun k _ => congrArg xa ?_
  funext a; refine Fin.ext ?_
  match a with
  | ⟨0, _⟩ => rfl
  | ⟨1, _⟩ => rfl

/-- A lane sum of a [256, 256] array read at row h. -/
theorem sum256_at (w : FVec Ideal S256x256 .f32) (h : Fin 256) :
    multiReduction (F := Ideal) .add [1] S256 w 0x00000000#32 reduces_S256x256_S256 (.inl rfl) rfl (ix1 h)
      = ∑ k : Fin 256, w (ix2 h k) := by
  refine (Ideal.multiReduction_add_single w 0x00000000#32 reduces_S256x256_S256 (.inl rfl) rfl (ix1 h)).trans ?_
  show ∑ k : Fin 256, w (reduces_S256x256_S256.lift (ix1 h) k) = _
  refine Finset.sum_congr rfl fun k _ => congrArg w ?_
  funext a; refine Fin.ext ?_
  match a with
  | ⟨0, _⟩ => rfl
  | ⟨1, _⟩ => rfl

/-- The index over row p of a [512, 4096] array with lane coordinate k. -/
theorem lift512 (p : Fin 512) (k : Fin 4096) : reduces_S512x4096_S512.lift (ix1 p) k = ix2 p k := by
  funext a; refine Fin.ext ?_
  match a with
  | ⟨0, _⟩ => rfl
  | ⟨1, _⟩ => rfl

/-- A lane sum of a [512, 4096] array read at row p. -/
theorem sum512_at (src : FVec Ideal S512x4096 .f32) (p : Fin 512) :
    multiReduction (F := Ideal) .add [1] S512 src 0x00000000#32 reduces_S512x4096_S512 (.inl rfl) rfl (ix1 p)
      = ∑ j : Fin 4096, src (ix2 p j) := by
  refine (Ideal.multiReduction_add_single src 0x00000000#32 reduces_S512x4096_S512 (.inl rfl) rfl (ix1 p)).trans ?_
  show ∑ k : Fin 4096, src (reduces_S512x4096_S512.lift (ix1 p) k) = _
  exact Finset.sum_congr rfl fun k _ => congrArg src (lift512 p k)

/-- A lane maximum of a [512, 4096] array read at row p: the fold of max from -inf over the row. -/
theorem max512_at (src : FVec Ideal S512x4096 .f32) (p : Fin 512) :
    multiReduction (F := Ideal) .maximumf [1] S512 src 0xFF800000#32 reduces_S512x4096_S512 (.inl rfl) rfl (ix1 p)
      = (Finset.univ : Finset (Fin 4096)).fold max (Ideal.ofBits .f32 0xFF800000#32) (fun j => src (ix2 p j)) := by
  refine (Ideal.multiReduction_maximumf_single src 0xFF800000#32 reduces_S512x4096_S512 (.inl rfl) rfl (ix1 p)).trans ?_
  show (Finset.univ : Finset (Fin 4096)).fold max (Ideal.ofBits .f32 0xFF800000#32) (fun k => src (reduces_S512x4096_S512.lift (ix1 p) k)) = _
  exact congrArg (fun f => Finset.fold max (Ideal.ofBits .f32 0xFF800000#32) f (Finset.univ : Finset (Fin 4096)))
    (funext fun k => congrArg src (lift512 p k))

/-- The lane maximum of the 0/1 indicator of a [512, 4096] array of bits, compared with 0, read at row p: set exactly when
    some bit of row p is set. -/
theorem has_row_iff (c : IVec S512x4096 1) (p : Fin 512) :
    cmpf (F := Ideal) .ogt
        (multiReduction (F := Ideal) .maximumf [1] S512
          (select c (broadcast S512x4096 (Scalar.ofBits (F := Ideal) .f32 0x3F800000#32)) (broadcast S512x4096 (Scalar.ofBits (F := Ideal) .f32 0x00000000#32)))
          0xFF800000#32 reduces_S512x4096_S512 (.inl rfl) rfl)
        (broadcast S512 (Scalar.ofBits (F := Ideal) .f32 0x00000000#32)) (ix1 p) = 1#1
      ↔ ∃ j : Fin 4096, c (ix2 p j) = 1#1 := by
  have e := max512_at
    (select c (broadcast S512x4096 (Scalar.ofBits (F := Ideal) .f32 0x3F800000#32)) (broadcast S512x4096 (Scalar.ofBits (F := Ideal) .f32 0x00000000#32))) p
  rw [cmpf_apply, e]
  exact has_iff (fun j => c (ix2 p j))

/-! ## The kernel's intermediate values -/

section Values
variable (i : grid0.Coords) (xb : FVec Ideal S512x256 .f32) (xa : FVec Ideal S4096x256 .f32) (w : FVec Ideal S256x256 .f32)

/-- The inner products of the block's rows with every row. -/
def gramV : FVec Ideal S512x4096 .f32 :=
  matmul (F := Ideal) dot_S512x256_S256x4096_S512x4096_1_0_0_1_n_n none xb
    (transpose S256x4096 [1, 0] xa transposes_S4096x256_p1_0_S256x4096) (constant (F := Ideal) S512x4096 .f32 0x00000000#32)

/-- The neighbour bits of the block's rows. -/
def bitV : IVec S512x4096 1 :=
  andi (cmpf .oge (mulf (gramV xb xa) (gramV xb xa)) (broadcast S512x4096 (Scalar.ofBits (F := Ideal) .f32 0x3F59999A#32)))
    (cmpi .ne (addi (broadcast S512x4096 (Scalar.muli (BitVec.ofNat 32 (i 0).val) 512#32)) (iota .tc S512x4096 32 [0] iota_S512x4096_d0_w32))
      (iota .tc S512x4096 32 [1] iota_S512x4096_d1_w32))

/-- Every row's sum, as a [4096] vector. -/
def rowsumV : FVec Ideal S4096 .f32 :=
  multiReduction (F := Ideal) .add [1] S4096 xa 0x00000000#32 reduces_S4096x256_S4096 (.inl rfl) rfl

/-- The neighbours' row sums added up, per block row. -/
def tV : FVec Ideal S512 .f32 :=
  multiReduction (F := Ideal) .add [1] S512
    (select (bitV i xb xa)
      (broadcastTo S512x4096 (shapeCast S1x4096 (shapeCast S1x4096 (rowsumV xa) shapeCasts_S4096_S1x4096) shapeCasts_S1x4096_S1x4096) broadcasts_S1x4096_S512x4096)
      (broadcast S512x4096 (Scalar.ofBits (F := Ideal) .f32 0x00000000#32)))
    0x00000000#32 reduces_S512x4096_S512 (.inl rfl) rfl

/-- Whether a block row has a neighbour, as a bit. -/
def hasV : IVec S512 1 :=
  cmpf .ogt
    (multiReduction (F := Ideal) .maximumf [1] S512
      (select (bitV i xb xa) (broadcast S512x4096 (Scalar.ofBits (F := Ideal) .f32 0x3F800000#32)) (broadcast S512x4096 (Scalar.ofBits (F := Ideal) .f32 0x00000000#32)))
      0xFF800000#32 reduces_S512x4096_S512 (.inl rfl) rfl)
    (broadcast S512 (Scalar.ofBits (F := Ideal) .f32 0x00000000#32))

/-- The scalar of each block row. -/
def scalV : FVec Ideal S512 .f32 :=
  select (hasV i xb xa) (divf (tV i xb xa) (broadcast S512 (Scalar.ofBits (F := Ideal) .f32 0x43800000#32)))
    (broadcast S512 (Scalar.ofBits (F := Ideal) .f32 0x00000000#32))

/-- The sums of the rows of the weights. -/
def wsumV : FVec Ideal S256 .f32 :=
  multiReduction (F := Ideal) .add [1] S256 w 0x00000000#32 reduces_S256x256_S256 (.inl rfl) rfl

/-- The product payload is the scalar column times the weight-sum row. -/
theorem pay2_eq : k0_pay2 (F := Ideal) i xb xa w
    = mulf (broadcastTo S512x256 (shapeCast S512x1 (scalV i xb xa) shapeCasts_S512_S512x1) broadcasts_S512x1_S512x256)
        (broadcastTo S512x256 (shapeCast S1x256 (wsumV w) shapeCasts_S256_S1x256) broadcasts_S1x256_S512x256) := rfl

end Values

/-! ## Each intermediate value at an index, in the specification's terms -/

section At
variable (i : grid0.Coords) (xb : FVec Ideal S512x256 .f32) (xa : FVec Ideal S4096x256 .f32) (w : FVec Ideal S256x256 .f32)

/-- Row p of the block being row r of the array, the product at (p, j) is the inner product of rows r and j. -/
theorem gram_at (p : Fin 512) (r : Fin 4096) (hxb : ∀ k : Fin 256, xb (ix2 p k) = xa (ix2 r k)) (j : Fin 4096) :
    gramV xb xa (ix2 p j) = Cert.Spec.gram xa r j := by
  unfold gramV
  refine (matmul_at xb _ p j).trans ?_
  unfold Cert.Spec.gram
  refine Finset.sum_congr rfl fun k _ => ?_
  rw [hxb k]
  exact congrArg (fun z => xa (ix2 r k) * z) (transpose_ix2_apply xa transposes_S4096x256_p1_0_S256x4096 k j)

/-- The bit at (p, j) is the neighbour bit of rows r and j. -/
theorem bit_at (p : Fin 512) (r : Fin 4096) (hr : r.val = (i 0).val * 512 + p.val)
    (hxb : ∀ k : Fin 256, xb (ix2 p k) = xa (ix2 r k)) (j : Fin 4096) :
    bitV i xb xa (ix2 p j) = Cert.Spec.mbit xa r j := by
  have hg := gram_at xb xa p r hxb j
  have hn : cmpi .ne (addi (broadcast S512x4096 (Scalar.muli (BitVec.ofNat 32 (i 0).val) 512#32)) (iota .tc S512x4096 32 [0] iota_S512x4096_d0_w32))
      (iota .tc S512x4096 32 [1] iota_S512x4096_d1_w32) (ix2 p j) = if r = j then 0#1 else 1#1 := by
    show IntOp.cmpi .ne (IntOp.addi (Scalar.muli (BitVec.ofNat 32 (i 0).val) 512#32) (iota .tc S512x4096 32 [0] iota_S512x4096_d0_w32 (ix2 p j)))
        (iota .tc S512x4096 32 [1] iota_S512x4096_d1_w32 (ix2 p j)) = _
    rw [iota_single_apply, iota_single_apply]
    exact ne_word (i 0).val p.val r j hr
  show IntOp.andi (Ideal.cmp .oge (gramV xb xa (ix2 p j) * gramV xb xa (ix2 p j)) (Ideal.ofBits .f32 0x3F59999A#32))
      (cmpi .ne (addi (broadcast S512x4096 (Scalar.muli (BitVec.ofNat 32 (i 0).val) 512#32)) (iota .tc S512x4096 32 [0] iota_S512x4096_d0_w32))
        (iota .tc S512x4096 32 [1] iota_S512x4096_d1_w32) (ix2 p j)) = _
  rw [hg, hn]
  rfl

/-- The row sums, carried to a row vector and broadcast over the block's rows, read at (p, j): the sum of row j. -/
theorem row_bcast_at (v : FVec Ideal S4096 .f32) (p : Fin 512) (j : Fin 4096) :
    broadcastTo S512x4096 (shapeCast S1x4096 (shapeCast S1x4096 v shapeCasts_S4096_S1x4096) shapeCasts_S1x4096_S1x4096)
      broadcasts_S1x4096_S512x4096 (ix2 p j) = v (ix1 j) := by
  refine (broadcastTo_1b_ab_apply _ broadcasts_S1x4096_S512x4096 p j).trans ?_
  rw [shapeCast_self]
  exact shapeCast_a_1a_apply v shapeCasts_S4096_S1x4096 0 j

/-- The selected row sums added up over j: the neighbours' row sums of row r. -/
theorem t_at (p : Fin 512) (r : Fin 4096) (hr : r.val = (i 0).val * 512 + p.val)
    (hxb : ∀ k : Fin 256, xb (ix2 p k) = xa (ix2 r k)) :
    tV i xb xa (ix1 p) = Cert.Spec.tsum xa r := by
  unfold tV
  refine (sum512_at _ p).trans ?_
  unfold Cert.Spec.tsum
  refine Finset.sum_congr rfl fun j _ => ?_
  show Scalar.select (bitV i xb xa (ix2 p j))
      (broadcastTo S512x4096 (shapeCast S1x4096 (shapeCast S1x4096 (rowsumV xa) shapeCasts_S4096_S1x4096) shapeCasts_S1x4096_S1x4096)
        broadcasts_S1x4096_S512x4096 (ix2 p j))
      (Ideal.ofBits .f32 0x00000000#32) = _
  rw [bit_at i xb xa p r hr hxb j, row_bcast_at, Ideal.ofBits_zero_f32]
  unfold rowsumV
  rw [sum4096_at]
  rfl

/-- The row maximum of the indicator is above 0 exactly when row r has a neighbour. -/
theorem has_at (p : Fin 512) (r : Fin 4096) (hr : r.val = (i 0).val * 512 + p.val)
    (hxb : ∀ k : Fin 256, xb (ix2 p k) = xa (ix2 r k)) :
    hasV i xb xa (ix1 p) = 1#1 ↔ Cert.Spec.has xa r := by
  unfold hasV
  exact (has_row_iff (bitV i xb xa) p).trans (exists_congr fun j => by rw [bit_at i xb xa p r hr hxb j])

/-- The scalar of block row p is the scalar of row r. -/
theorem scal_at (p : Fin 512) (r : Fin 4096) (hr : r.val = (i 0).val * 512 + p.val)
    (hxb : ∀ k : Fin 256, xb (ix2 p k) = xa (ix2 r k)) :
    scalV i xb xa (ix1 p) = Cert.Spec.scal xa r := by
  have hh := has_at i xb xa p r hr hxb
  have ht := t_at i xb xa p r hr hxb
  show Scalar.select (hasV i xb xa (ix1 p)) (Ideal.div (tV i xb xa (ix1 p)) (Ideal.ofBits .f32 0x43800000#32))
      (Ideal.ofBits .f32 0x00000000#32) = _
  unfold Cert.Spec.scal
  by_cases hc : Cert.Spec.has xa r
  · rw [if_pos hc, hh.mpr hc, ht, select_one]
    rfl
  · rw [if_neg hc, eq_zero_of_ne_one (fun h1 => hc (hh.mp h1)), select_zero, Ideal.ofBits_zero_f32]

/-- The lane sum of the weights at h. -/
theorem wsum_at (h : Fin 256) : wsumV w (ix1 h) = Cert.Spec.wsum w h := sum256_at w h

/-- The product payload at (p, h). -/
theorem pay2_at (p : Fin 512) (r : Fin 4096) (hr : r.val = (i 0).val * 512 + p.val)
    (hxb : ∀ k : Fin 256, xb (ix2 p k) = xa (ix2 r k)) (h : Fin 256) :
    k0_pay2 (F := Ideal) i xb xa w (ix2 p h) = Cert.Spec.scal xa r * Cert.Spec.wsum w h := by
  rw [pay2_eq]
  refine (mulf_apply _ _ (ix2 p h)).trans ?_
  rw [bcast_col_at, cast_col_at, broadcastTo_1b_ab_apply, shapeCast_a_1a_apply, scal_at i xb xa p r hr hxb, wsum_at]

end At

/-- The bias row, carried through the vector form and back and broadcast over the rows, is added. -/
theorem pay1_at (v37 : FVec Ideal S512x256 .f32) (bb : FVec Ideal S1x256 .f32) (p : Fin 512) (h : Fin 256) :
    k0_pay1 (F := Ideal) v37 bb (ix2 p h) = v37 (ix2 p h) + bb (ix2 (0 : Fin 1) h) := by
  show v37 (ix2 p h) + broadcastTo S512x256 (shapeCast S1x256 (shapeCast S256 bb shapeCasts_S1x256_S256) shapeCasts_S256_S1x256)
      broadcasts_S1x256_S512x256 (ix2 p h) = _
  rw [broadcastTo_1b_ab_apply, shapeCast_a_1a_apply, shapeCast_1a_a_apply]

/-- THE STORED VALUE AT (p, h): with row p of the block row r = i·512 + p of the array, it is the specification's kernel
    form at (r, h). -/
theorem pay_apply [Cert.KernelIdeal.Facts] (i : grid0.Coords) (xb : Vec Ideal S512x256 .f32) (xa : Vec Ideal S4096x256 .f32)
    (w : Vec Ideal S256x256 .f32) (bb : Vec Ideal S1x256 .f32)
    (p : Fin 512) (h : Fin 256) (r : Fin 4096) (hr : r.val = (i 0).val * 512 + p.val)
    (hxb : ∀ k : Fin 256, xb (ix2 p k) = xa (ix2 r k)) :
    k0_pay1 (F := Ideal) (k0_pay2 (F := Ideal) i xb xa w) bb (ix2 p h)
      = Cert.Spec.kerOut xa w (fun j => bb (ix2 0 (j 0))) r h := by
  rw [pay1_at, pay2_at i xb xa w p r hr hxb h]
  rfl

end Cert.KerPay

end
-- ==== Proof.KFrame.lean ====
/-
  The frame of `Cert.Kernel`: its one kernel region, launched from the region-entry contents, runs to the end at every
  grid point, faults nowhere, leaves the three argument arrays as they were, and leaves in the result array, block
  by block, what the body stored.

  The region has five windows. Windows 0 and 1 both read the feature array x (the first a block of 512 rows that
  moves with the grid point, the second the whole array, fetched once), window 2 the weights, window 3 the bias as
  a [1, 256] row (written by the one host operation before the region, a reshape), window 4 the result, one block of
  512 rows written back at every point. Because two input windows read ONE array, the array's ownership is dealt
  between them in halves (`q` of the proof data below, `arrays_of_buffers`); a read needs only a part of the
  ownership, so both fetches go through, and the halves rejoin when the region ends.

  The body loads the four input blocks whole, computes, and stores the output block whole (one rectangle that is
  the whole block), so after the body the output's staging buffer holds one pure function of the four input blocks
  and of the grid coordinate (`outBlock`).
-/
import proofs.«149596_g65481071399741_fold_wed_c4_273_2_alg».proof.Proof.Gen.Kernel.Launch
import proofs.«149596_g65481071399741_fold_wed_c4_273_2_alg».proof.Proof.Gen.Kernel.Skeleton
import proofs.«149596_g65481071399741_fold_wed_c4_273_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffers when the region is entered: the launch contents after the one host operation (the bias
    reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row's buffer: each argument array is entered as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block at every point, fetched there or not
    (a window that is not fetched has not moved). One statement per input window, for any proof data. -/
theorem found_in {c : Dev nD} (dat : Dat τ (Elt F) Unit ℕ (UR sig nD τ) ℕ cfg0 c) (w : Fin cfg0.W)
    (hw : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's accesses and what it leaves in the output buffer -/

abbrev rXB : Rect S512x256 := Rect.unit (s := S512x256) ![0, 0] S512x256.size inb_S512x256_S512x256_0_0
abbrev rXA : Rect S4096x256 := Rect.unit (s := S4096x256) ![0, 0] S4096x256.size inb_S4096x256_S4096x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The output block the body stores at grid coordinate `i`, from the four input blocks: its one store, whose
    rectangle is the whole block, of the body's arithmetic on the loaded blocks. -/
def outBlock (i : grid0.Coords) (xb : Vec F S512x256 .f32) (xa : Vec F S4096x256 .f32) (w : Vec F S256x256 .f32) (bb : Vec F S1x256 .f32) :
    Vec F S512x256 .f32 :=
  View.canon [⟨rXB, k0_pay1 (k0_pay2 i (View.ld xb rXB) (View.ld xa rXA) (View.ld w rW)) (View.ld bb rB)⟩]

/-- The one store covers the buffer. -/
theorem store_covers (p0 : Vec F S512x256 .f32) (y : S512x256.Idx) :
    ∃ pc ∈ ([⟨rXB, p0⟩] : List (View.Piece (Elt F) S512x256 .f32)), y ∈ pc.1.set :=
  View.cover_of_tiled [⟨rXB, p0⟩] S512x256.size (by rfl) y

/-! ## The body's triple -/

set_option maxHeartbeats 1000000 in
/-- The kernel body on whole staging memrefs, the four inputs' at read contents and the output's at anything, runs to
    a continuation that holds the inputs' as they were and the output's at `outBlock` of them. -/
theorem sound_kernel (c : Dev nD) (E : Set ℕ) (i : grid0.Coords)
    (arg1 : Memref sig .tc .vmem S512x256 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S512x256 .f32) (harg5 : arg5.IsWhole)
    (xb : Vec F S512x256 .f32) (xa : Vec F S4096x256 .f32) (w : Vec F S256x256 .f32) (bb : Vec F S1x256 .f32) (K : PUnit → sProp 𝕄) :
    iprop(owns (c : Thread nD τ) arg1 fullShare xb ∗ owns (c : Thread nD τ) arg2 fullShare xa ∗ owns (c : Thread nD τ) arg3 fullShare w
        ∗ owns (c : Thread nD τ) arg4 fullShare bb ∗ (∃ d, owns (c : Thread nD τ) arg5 fullShare d)
        ∗ (iprop(owns (c : Thread nD τ) arg1 fullShare xb ∗ owns (c : Thread nD τ) arg2 fullShare xa ∗ owns (c : Thread nD τ) arg3 fullShare w
            ∗ owns (c : Thread nD τ) arg4 fullShare bb ∗ owns (c : Thread nD τ) arg5 fullShare (outBlock i xb xa w bb)) -∗ K ⟨⟩))
      ⊢ wp frame (wpE (defs₀ (F := F)) Variants.none c none) E (cc0__qlayer_kern i arg1 harg1 arg2 harg2 arg3 harg3 arg4 harg4 arg5 harg5) K := by
  simp only [cc0__qlayer_kern_eq_skeleton]; unfold cc0__qlayer_kern_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The proof data -/

/-- The proof data of the one pipeline on core `c`. The arrays are the region-entry contents. After the body at point
    `t` each input window's buffer holds its block (the body only reads them) and the output window's holds
    `outBlock` of the four input blocks. The body needs nothing beyond its buffers, so the invariant is just the
    core's remaining scoped buffers, passed along untouched. The feature array is read by windows 0 and 1: each holds
    one half of its ownership; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (grid0.coords t) (iblk m c 0 t) (iblk m c 1 t) (iblk m c 2 t) (iblk m c 3 t) := by
  dsimp only [dats]

/-- Each input window's current buffer holds its block at every point. -/
theorem before_0 (c : Dev nD) (t : Fin cfg0.N) (d) : (dats m 0 c).before 0 t d = iblk m c 0 t :=
  (found_in (dats m 0 c) 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  (found_in (dats m 0 c) 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  (found_in (dats m 0 c) 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  (found_in (dats m 0 c) 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The launch -/

/-- The shares the proof data hold the arrays at: the feature array in halves between its two windows. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The distinct buffers behind the five windows' arrays — the features, the weights, the bias row, the result —
    each held whole, are the pipeline's arrays at entry: the feature array's ownership is split in two, one half for
    each of the two windows that read it. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_call0_v0, main_v0] (by decide) (by decide), bigSep_W0]
  rw [(arr_whole0 0).set_eq_univ, (arr_whole0 2).set_eq_univ, (arr_whole0 3).set_eq_univ,
    (arr_whole0 4).set_eq_univ, share_0, share_1, share_2, share_3, share_4]
  show iprop((((c.tc : Thread nD τ).loc main_arg0) ↦{fullShare} V m c main_arg0) ∗ (((c.tc : Thread nD τ).loc main_arg1) ↦{fullShare} V m c main_arg1)
      ∗ (((c.tc : Thread nD τ).loc main_call0_v0) ↦{fullShare} V m c main_call0_v0) ∗ (((c.tc : Thread nD τ).loc main_v0) ↦{fullShare} V m c main_v0)) ⊢ _
  have halves : ((((c.tc : Thread nD τ).loc main_arg0) ↦{fullShare} V m c main_arg0 : sProp 𝕄))
      ⊢ iprop((((c.tc : Thread nD τ).loc main_arg0) ↦{fullShare.left} V m c main_arg0)
          ∗ (((c.tc : Thread nD τ).loc main_arg0) ↦{fullShare.right} V m c main_arg0)) :=
    (pointsTo_share (PosShare.mem_left_op_right fullShare)).1
  refine (sep_mono halves .rfl).trans ?_
  iintro ⟨⟨Hx0, Hx1⟩, Hw, Hb, Ho⟩
  isplitl [Hx0]; · iexact Hx0
  isplitl [Hx1]; · iexact Hx1
  isplitl [Hw]; · iexact Hw
  isplitl [Hb]; · iexact Hb
  iexact Ho

/-- THE RUN: from any memory with zero counters, every weakly fair execution of @main terminates, nothing faults, every
    window's array ends at what the write-backs of the proof data leave in it, and every other unscoped buffer as the
    region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_buffers m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the three argument arrays end as launched. The features (windows 0 and 1) and the weights (window 2)
    are input arrays of the pipeline, never written; the bias is no window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m ρ)

end Cert.Kernel.Fr

end
-- ==== Proof.KIFrame.lean ====
/-
  The frame of `Cert.KernelIdeal`: its one kernel region, launched from the region-entry contents, runs to the end at every
  grid point, faults nowhere, leaves the three argument arrays as they were, and leaves in the result array, block
  by block, what the body stored.

  The region has five windows. Windows 0 and 1 both read the feature array x (the first a block of 512 rows that
  moves with the grid point, the second the whole array, fetched once), window 2 the weights, window 3 the bias as
  a [1, 256] row (written by the one host operation before the region, a reshape), window 4 the result, one block of
  512 rows written back at every point. Because two input windows read ONE array, the array's ownership is dealt
  between them in halves (`q` of the proof data below, `arrays_of_buffers`); a read needs only a part of the
  ownership, so both fetches go through, and the halves rejoin when the region ends.

  The body loads the four input blocks whole, computes, and stores the output block whole (one rectangle that is
  the whole block), so after the body the output's staging buffer holds one pure function of the four input blocks
  and of the grid coordinate (`outBlock`).
-/
import proofs.«149596_g65481071399741_fold_wed_c4_273_2_alg».proof.Proof.Gen.KernelIdeal.Launch
import proofs.«149596_g65481071399741_fold_wed_c4_273_2_alg».proof.Proof.Gen.KernelIdeal.Skeleton
import proofs.«149596_g65481071399741_fold_wed_c4_273_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffers when the region is entered: the launch contents after the one host operation (the bias
    reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row's buffer: each argument array is entered as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block at every point, fetched there or not
    (a window that is not fetched has not moved). One statement per input window, for any proof data. -/
theorem found_in {c : Dev nD} (dat : Dat τ (Elt F) Unit ℕ (UR sig nD τ) ℕ cfg0 c) (w : Fin cfg0.W)
    (hw : (cfg0.win w).isOut = false)
    (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

/-! ## The body's accesses and what it leaves in the output buffer -/

abbrev rXB : Rect S512x256 := Rect.unit (s := S512x256) ![0, 0] S512x256.size inb_S512x256_S512x256_0_0
abbrev rXA : Rect S4096x256 := Rect.unit (s := S4096x256) ![0, 0] S4096x256.size inb_S4096x256_S4096x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The output block the body stores at grid coordinate `i`, from the four input blocks: its one store, whose
    rectangle is the whole block, of the body's arithmetic on the loaded blocks. -/
def outBlock (i : grid0.Coords) (xb : Vec F S512x256 .f32) (xa : Vec F S4096x256 .f32) (w : Vec F S256x256 .f32) (bb : Vec F S1x256 .f32) :
    Vec F S512x256 .f32 :=
  View.canon [⟨rXB, k0_pay1 (k0_pay2 i (View.ld xb rXB) (View.ld xa rXA) (View.ld w rW)) (View.ld bb rB)⟩]

/-- The one store covers the buffer. -/
theorem store_covers (p0 : Vec F S512x256 .f32) (y : S512x256.Idx) :
    ∃ pc ∈ ([⟨rXB, p0⟩] : List (View.Piece (Elt F) S512x256 .f32)), y ∈ pc.1.set :=
  View.cover_of_tiled [⟨rXB, p0⟩] S512x256.size (by rfl) y

/-! ## The body's triple -/

set_option maxHeartbeats 1000000 in
/-- The kernel body on whole staging memrefs, the four inputs' at read contents and the output's at anything, runs to
    a continuation that holds the inputs' as they were and the output's at `outBlock` of them. -/
theorem sound_kernel (c : Dev nD) (E : Set ℕ) (i : grid0.Coords)
    (arg1 : Memref sig .tc .vmem S512x256 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S512x256 .f32) (harg5 : arg5.IsWhole)
    (xb : Vec F S512x256 .f32) (xa : Vec F S4096x256 .f32) (w : Vec F S256x256 .f32) (bb : Vec F S1x256 .f32) (K : PUnit → sProp 𝕄) :
    iprop(owns (c : Thread nD τ) arg1 fullShare xb ∗ owns (c : Thread nD τ) arg2 fullShare xa ∗ owns (c : Thread nD τ) arg3 fullShare w
        ∗ owns (c : Thread nD τ) arg4 fullShare bb ∗ (∃ d, owns (c : Thread nD τ) arg5 fullShare d)
        ∗ (iprop(owns (c : Thread nD τ) arg1 fullShare xb ∗ owns (c : Thread nD τ) arg2 fullShare xa ∗ owns (c : Thread nD τ) arg3 fullShare w
            ∗ owns (c : Thread nD τ) arg4 fullShare bb ∗ owns (c : Thread nD τ) arg5 fullShare (outBlock i xb xa w bb)) -∗ K ⟨⟩))
      ⊢ wp frame (wpE (defs₀ (F := F)) Variants.none c none) E (cc0__qlayer_kern i arg1 harg1 arg2 harg2 arg3 harg3 arg4 harg4 arg5 harg5) K := by
  simp only [cc0__qlayer_kern_eq_skeleton]; unfold cc0__qlayer_kern_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The proof data -/

/-- The proof data of the one pipeline on core `c`. The arrays are the region-entry contents. After the body at point
    `t` each input window's buffer holds its block (the body only reads them) and the output window's holds
    `outBlock` of the four input blocks. The body needs nothing beyond its buffers, so the invariant is just the
    core's remaining scoped buffers, passed along untouched. The feature array is read by windows 0 and 1: each holds
    one half of its ownership; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (grid0.coords t) (iblk m c 0 t) (iblk m c 1 t) (iblk m c 2 t) (iblk m c 3 t) := by
  dsimp only [dats]

/-- Each input window's current buffer holds its block at every point. -/
theorem before_0 (c : Dev nD) (t : Fin cfg0.N) (d) : (dats m 0 c).before 0 t d = iblk m c 0 t :=
  (found_in (dats m 0 c) 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  (found_in (dats m 0 c) 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  (found_in (dats m 0 c) 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  (found_in (dats m 0 c) 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The launch -/

/-- The shares the proof data hold the arrays at: the feature array in halves between its two windows. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The distinct buffers behind the five windows' arrays — the features, the weights, the bias row, the result —
    each held whole, are the pipeline's arrays at entry: the feature array's ownership is split in two, one half for
    each of the two windows that read it. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_call0_v0, main_v0] (by decide) (by decide), bigSep_W0]
  rw [(arr_whole0 0).set_eq_univ, (arr_whole0 2).set_eq_univ, (arr_whole0 3).set_eq_univ,
    (arr_whole0 4).set_eq_univ, share_0, share_1, share_2, share_3, share_4]
  show iprop((((c.tc : Thread nD τ).loc main_arg0) ↦{fullShare} V m c main_arg0) ∗ (((c.tc : Thread nD τ).loc main_arg1) ↦{fullShare} V m c main_arg1)
      ∗ (((c.tc : Thread nD τ).loc main_call0_v0) ↦{fullShare} V m c main_call0_v0) ∗ (((c.tc : Thread nD τ).loc main_v0) ↦{fullShare} V m c main_v0)) ⊢ _
  have halves : ((((c.tc : Thread nD τ).loc main_arg0) ↦{fullShare} V m c main_arg0 : sProp 𝕄))
      ⊢ iprop((((c.tc : Thread nD τ).loc main_arg0) ↦{fullShare.left} V m c main_arg0)
          ∗ (((c.tc : Thread nD τ).loc main_arg0) ↦{fullShare.right} V m c main_arg0)) :=
    (pointsTo_share (PosShare.mem_left_op_right fullShare)).1
  refine (sep_mono halves .rfl).trans ?_
  iintro ⟨⟨Hx0, Hx1⟩, Hw, Hb, Ho⟩
  isplitl [Hx0]; · iexact Hx0
  isplitl [Hx1]; · iexact Hx1
  isplitl [Hw]; · iexact Hw
  isplitl [Hb]; · iexact Hb
  iexact Ho

/-- THE RUN: from any memory with zero counters, every weakly fair execution of @main terminates, nothing faults, every
    window's array ends at what the write-backs of the proof data leave in it, and every other unscoped buffer as the
    region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_buffers m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the three argument arrays end as launched. The features (windows 0 and 1) and the weights (window 2)
    are input arrays of the pipeline, never written; the bias is no window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m ρ)

end Cert.KernelIdeal.Fr

end
-- ==== Proof.KIValue.lean ====
/-
  What the idealized kernel's run leaves in the result array, as one function of the three argument arrays.

  Grid point t stores block t of the result: rows t·512 … t·512 + 511. Row p of that block is computed from row p
  of the first window's block — row t·512 + p of the features —, from the whole feature array (second window), the
  weights and the bias row. So each point writes back the restriction to its block of ONE function `G` of the
  arrays (`flushed_eq`); the eight blocks tile the 4096 rows (`covered`), so after the run the array IS `G`
  (`final`), and with the bias row read back through the reshape that made it, entry (r, h) is the specification's
  kernel form of x, W, b (`final_spec`).
-/
import proofs.«149596_g65481071399741_fold_wed_c4_273_2_alg».proof.Proof.KIFrame
import proofs.«149596_g65481071399741_fold_wed_c4_273_2_alg».proof.Proof.KerPay
import proofs.«149596_g65481071399741_fold_wed_c4_273_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result array as one function of the feature array, the weights and the bias ROW (the [1, 256] array the
    region's fourth window reads): entry (r, h) is the specification's kernel form at row r and column h. -/
def G (x : S4096x256.Idx → Elt Ideal .f32) (w : S256x256.Idx → Elt Ideal .f32) (brow : S1x256.Idx → Elt Ideal .f32) :
    S4096x256.Idx → Elt Ideal .f32 :=
  fun i => Cert.Spec.kerOut x w (fun j => brow (ix2 (0 : Fin 1) (j 0))) ⟨(i 0).val, idx2_lt0 i⟩ ⟨(i 1).val, idx2_lt1 i⟩

theorem zero_off : (![0, 0] : Fin 2 → Nat) = fun _ => 0 := funext fun a => by fin_cases a <;> rfl

/-- The printed index maps over the eight grid points: the output's block and the first window's block are block
    `t` of rows (block column 0), and the other three windows sit at block (0, 0) throughout. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = (grid0.coords t 0).val ∧ win0_4.index t (1 : Fin 2) = 0
    ∧ win0_4.index t (0 : Fin 2) ≤ 7 :=
  (by decide +kernel : ∀ t : Fin grid0.N, _)

/-- Every block row is some grid point's. -/
theorem idx_onto : ∀ q0 : Fin 8, ∃ t : Fin cfg0.N, win0_4.index t = ![q0.val, 0] :=
  (by decide +kernel : ∀ q0 : Fin 8, ∃ t : Fin grid0.N, win0_4.index t = ![q0.val, 0])

/-! ## The windows that hold a whole array: their block IS the array -/

theorem iblk1_eq (c : Dev nD) (t : Fin cfg0.N) : (iblk m c 1 t : S4096x256.Idx → Elt Ideal .f32) = V m c main_arg0 := by
  obtain ⟨e00, e01, e10, e11, e20, e21, e30, e31, e40, e41, e4b⟩ := idx_facts t
  unfold iblk
  funext y
  show V m c main_arg0 (((cfg0.win 1).blk t).view.emb y) = V m c main_arg0 y
  congr 1
  funext a; apply Fin.ext
  match a with
  | ⟨0, _⟩ => show win0_1.index t (0 : Fin 2) * 4096 + 1 * (y 0).val = (y 0).val; omega
  | ⟨1, _⟩ => show win0_1.index t (1 : Fin 2) * 256 + 1 * (y 1).val = (y 1).val; omega

theorem iblk2_eq (c : Dev nD) (t : Fin cfg0.N) : (iblk m c 2 t : S256x256.Idx → Elt Ideal .f32) = V m c main_arg1 := by
  obtain ⟨e00, e01, e10, e11, e20, e21, e30, e31, e40, e41, e4b⟩ := idx_facts t
  unfold iblk
  funext y
  show V m c main_arg1 (((cfg0.win 2).blk t).view.emb y) = V m c main_arg1 y
  congr 1
  funext a; apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem iblk3_eq (c : Dev nD) (t : Fin cfg0.N) : (iblk m c 3 t : S1x256.Idx → Elt Ideal .f32) = V m c main_call0_v0 := by
  obtain ⟨e00, e01, e10, e11, e20, e21, e30, e31, e40, e41, e4b⟩ := idx_facts t
  unfold iblk
  funext y
  show V m c main_call0_v0 (((cfg0.win 3).blk t).view.emb y) = V m c main_call0_v0 y
  congr 1
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

/-! ## What a grid point writes back -/

/-- Grid point `t` writes back block `t` of `G` of the arrays as the region finds them: row p of the block is row
    t·512 + p of the array, whose entries depend on that row of the features (the first window's block row p), on the
    whole feature array, the weights and the bias row. -/
theorem flushed_eq (c : Dev nD) (t : Fin cfg0.N) :
    (dats m 0 c).flushed 4 t
      = ((cfg0.win 4).blk t).view.read (Elt Ideal) (G (V m c main_arg0) (V m c main_arg1) (V m c main_call0_v0)) := by
  show (cfg0.win 4).cut (grid0.coords t) ((dats m 0 c).after 4 t) = _
  rw [after_4]
  unfold outBlock
  rw [View.canon_unit_zero zero_off]
  simp only [View.ld_unit_zero (S := S512x256) zero_off, View.ld_unit_zero (S := S4096x256) zero_off,
    View.ld_unit_zero (S := S256x256) zero_off, View.ld_unit_zero (S := S1x256) zero_off]
  obtain ⟨e00, e01, e10, e11, e20, e21, e30, e31, e40, e41, e4b⟩ := idx_facts t
  funext j
  obtain ⟨p, h, rfl⟩ : ∃ (p : Fin 512) (h : Fin 256), j = ix2 p h := ⟨j 0, j 1, eq_ix2 j⟩
  show k0_pay1 (F := Ideal) (k0_pay2 (F := Ideal) (grid0.coords t) (iblk m c 0 t) (iblk m c 1 t) (iblk m c 2 t)) (iblk m c 3 t) (ix2 p h)
    = G (V m c main_arg0) (V m c main_arg1) (V m c main_call0_v0) (((cfg0.win 4).blk t).view.emb (ix2 p h))
  have hr0 : ((((cfg0.win 4).blk t).view.emb (ix2 p h)) 0).val = (grid0.coords t 0).val * 512 + p.val := by
    show win0_4.index t (0 : Fin 2) * 512 + 1 * p.val = _; omega
  have hr1 : ((((cfg0.win 4).blk t).view.emb (ix2 p h)) 1).val = h.val := by
    show win0_4.index t (1 : Fin 2) * 256 + 1 * h.val = _; omega
  refine (Cert.KerPay.pay_apply (grid0.coords t) (iblk m c 0 t) (iblk m c 1 t) (iblk m c 2 t) (iblk m c 3 t) p h
    ⟨_, idx2_lt0 (((cfg0.win 4).blk t).view.emb (ix2 p h))⟩ hr0 (fun k => ?_)).trans ?_
  · rw [iblk1_eq]
    unfold iblk
    show V m c main_arg0 (((cfg0.win 0).blk t).view.emb (ix2 p k)) = V m c main_arg0 _
    congr 1
    funext a; apply Fin.ext
    match a with
    | ⟨0, _⟩ => show win0_0.index t (0 : Fin 2) * 512 + 1 * p.val = ((((cfg0.win 4).blk t).view.emb (ix2 p h)) 0).val; omega
    | ⟨1, _⟩ => show win0_0.index t (1 : Fin 2) * 256 + 1 * k.val = k.val; omega
  · rw [iblk1_eq, iblk2_eq, iblk3_eq]
    unfold G
    exact congrArg (Cert.Spec.kerOut _ _ _ _) (Fin.ext hr1.symm)

/-! ## The cover: the eight blocks of 512 rows fill the array -/

theorem mem_blk (t : Fin cfg0.N) (i : S4096x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0).slice (win0_4.rect t)).set ↔ _
  rw [View.set_slice_whole, Rect.mem_set_unit]
  exact Iff.rfl

/-- Row r lies in block r / 512. -/
theorem covered (i : S4096x256.Idx) : ∃ t : Fin cfg0.N, (cfg0.win 4).flush t = true ∧ i ∈ ((cfg0.win 4).blk t).view.set := by
  have hi0 : (i 0).val < 4096 := (i 0).isLt
  have hi1 : (i 1).val < 256 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- THE RESULT ARRAY after the run: `G` of the arrays as the region finds them. -/
theorem final (c : Dev nD) :
    (dats m 0 c).arrAt 4 cfg0.N = G (V m c main_arg0) (V m c main_arg1) (V m c main_call0_v0) :=
  (dats m 0 c).arrAt_eq_of_cover 4 _ (fun t _ => flushed_eq m c t) covered

/-! ## The bias row -/

/-- The one host operation before the region lays the bias out as a [1, 256] row: its entry (0, h) is the bias at h. -/
theorem bias_row (c : Dev nD) (h : Fin 256) :
    (V m c main_call0_v0 : S1x256.Idx → Elt Ideal .f32) (ix2 (0 : Fin 1) h) = m ((c : Thread nD τ).loc main_arg2) (ix1 h) := by
  have e : (V m c main_call0_v0 : S1x256.Idx → Elt Ideal .f32)
      = shapeCast S1x256 (m ((c : Thread nD τ).loc main_arg2)) shapeCasts_S256_S1x256 := by
    dsimp only [V, hostOps0]; after_results; rfl
  rw [e]
  exact ValueIdx.shapeCast_a_1a_apply _ _ _ _

/-- THE KERNEL'S RESULT in terms of the three ARGUMENT arrays: entry (r, h) is the specification's kernel form. -/
theorem final_spec (c : Dev nD) (i : S4096x256.Idx) :
    (dats m 0 c).arrAt 4 cfg0.N i
      = Cert.Spec.kerOut (m ((c : Thread nD τ).loc main_arg0)) (m ((c : Thread nD τ).loc main_arg1)) (m ((c : Thread nD τ).loc main_arg2))
          ⟨(i 0).val, idx2_lt0 i⟩ ⟨(i 1).val, idx2_lt1 i⟩ := by
  rw [final]
  unfold G
  rw [V_main_arg0, V_main_arg1]
  unfold Cert.Spec.kerOut
  congr 1
  exact bias_row m c _

end Cert.KernelIdeal.Val

end
-- ==== Proof.lean ====
/-
  The certificate of a graph layer's kernel against its reference, over the extended reals.

  Both programs take node features x : [4096, 256], weights W : [256, 256] and a bias b : [256]. Nodes r ≠ j are
  neighbours when (x_r · x_j)² ≥ 0.85. The reference sums the neighbours' feature vectors, takes the mean of that sum
  over the 256 features, puts 0 for a node without neighbours, and applies the linear layer to the row that repeats
  this scalar: out[r, h] = Σ_f agg r · W[h, f] + b[h]. The kernel computes the same scalar as
  (Σ_j [r ~ j] · Σ_f x[j, f]) / 256 (the two sums exchanged) and multiplies it by the row sum of W (the scalar pulled
  out of the product): out[r, h] = scal r · Σ_f W[h, f] + b[h]. Exchanging the sums needs nothing; pulling the scalar
  out is distributivity, which on the extended reals needs the scalar and W finite: this is where the precondition
  (every input finite) is used.

  The pieces: the specification of both forms (Spec), the law joining them (Algebra), finiteness from the precondition
  (Finite), the reference's result read at an index (RefSide, over the reference's run RefRun / RefRead), the kernel's
  stored value read at an index (KerPay), the kernel's result array as one function of the arguments (KIValue), and the
  frames of the two kernel programs (KFrame, KIFrame: the kernel region run from its launch, two of its windows reading
  one array). The idealization rewrote nothing, so the preservation claim is trivial.
-/
import proofs.«149596_g65481071399741_fold_wed_c4_273_2_alg».proof.Defs
import proofs.«149596_g65481071399741_fold_wed_c4_273_2_alg».proof.Proof.Gen.Kernel
import proofs.«149596_g65481071399741_fold_wed_c4_273_2_alg».proof.Proof.Gen.KernelIdeal
import proofs.«149596_g65481071399741_fold_wed_c4_273_2_alg».proof.Proof.Gen.ReferenceIdeal
import proofs.«149596_g65481071399741_fold_wed_c4_273_2_alg».proof.Proof.Gen.Pre_finite_inputs
import proofs.«149596_g65481071399741_fold_wed_c4_273_2_alg».proof.Proof.RefRun
import proofs.«149596_g65481071399741_fold_wed_c4_273_2_alg».proof.Proof.RefRead
import proofs.«149596_g65481071399741_fold_wed_c4_273_2_alg».proof.Proof.Spec
import proofs.«149596_g65481071399741_fold_wed_c4_273_2_alg».proof.Proof.Algebra
import proofs.«149596_g65481071399741_fold_wed_c4_273_2_alg».proof.Proof.Finite
import proofs.«149596_g65481071399741_fold_wed_c4_273_2_alg».proof.Proof.RefSide
import proofs.«149596_g65481071399741_fold_wed_c4_273_2_alg».proof.Proof.KerPay
import proofs.«149596_g65481071399741_fold_wed_c4_273_2_alg».proof.Proof.KFrame
import proofs.«149596_g65481071399741_fold_wed_c4_273_2_alg».proof.Proof.KIFrame
import proofs.«149596_g65481071399741_fold_wed_c4_273_2_alg».proof.Proof.KIValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on x, W and b, both idealized programs end with the same result array: the kernel's is
    the specification's kernel form of the arguments entry by entry, the reference's its reference form, and the two
    forms agree because the precondition makes x and W finite. -/
theorem algebraic : Cert.algebraic_KernelIdeal_ReferenceIdeal := by
  intro m ρ m' ρ' hpre hagree
  refine ⟨fun c => (Cert.KernelIdeal.Fr.dats m 0 c).arrAt 4 Cert.KernelIdeal.cfg0.N, ?_, ?_⟩
  · exact (θ_run Cert.KernelIdeal.defs _ _).mono (fun r h c =>
      ⟨(h c).1 4,
        ((h c).1 0).trans (((Cert.KernelIdeal.Fr.dats m 0 c).arrAt_in 0 rfl _).trans
          ((Cert.KernelIdeal.Fr.A_eq m c 0).trans (Cert.KernelIdeal.Fr.V_main_arg0 m c))),
        ((h c).1 2).trans (((Cert.KernelIdeal.Fr.dats m 0 c).arrAt_in 2 rfl _).trans
          ((Cert.KernelIdeal.Fr.A_eq m c 2).trans (Cert.KernelIdeal.Fr.V_main_arg1 m c))),
        ((h c).2 Cert.KernelIdeal.main_arg2 (Pipeline.mem_restRefs_of Cert.KernelIdeal.main_arg2 (by decide) (by decide))).trans
          (Cert.KernelIdeal.Fr.V_main_arg2 m c)⟩)
      (Cert.KernelIdeal.Fr.run_main m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v26_eq, (hagree c).1, (hagree c).2.1, (hagree c).2.2]
    funext i
    obtain ⟨r', h', rfl⟩ : ∃ (r' : Fin 4096) (h' : Fin 256), i = ix2 r' h' := ⟨i 0, i 1, eq_ix2 i⟩
    obtain ⟨hx, hW⟩ := Cert.Finite.real_of_pre _ _ _ (hpre c)
    rw [Cert.RefSide.ref_apply]
    exact (Cert.Algebra.refOut_eq_kerOut _ _ _ hx hW r' h').trans (Cert.KernelIdeal.Val.final_spec m c (ix2 r' h')).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
